-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x5 : Shape := ⟨2, ![524288, 5]⟩
abbrev S5 : Shape := ⟨1, ![5]⟩
abbrev S128x5 : Shape := ⟨2, ![128, 5]⟩
abbrev S128 : Shape := ⟨1, ![128]⟩
abbrev S32x128 : Shape := ⟨2, ![32, 128]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S524288x5 : S_.BroadcastsInDim S524288x5 (![] : Fin 0 → Fin S524288x5.rank)
  reducesTo_S524288x5_S_d0_1 : S524288x5.ReducesTo [0, 1] S_
  h_S_ : 0 < S_.numel
  bcast_S_S5 : S_.BroadcastsInDim S5 (![] : Fin 0 → Fin S5.rank)
  reducesTo_S5_S_d0 : S5.ReducesTo [0] S_
  bcast_S_S128x5 : S_.BroadcastsInDim S128x5 (![] : Fin 0 → Fin S128x5.rank)
  reducesTo_S128x5_S_d0_1 : S128x5.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x32 .f32) (main_arg12 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x32 .f32 := Host.absf main_arg11
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S32x128 .f32) (main_arg8 : FVec F S32 .f32) (main_arg9 : FVec F S1x32 .f32) (main_arg10 : FVec F S1 .f32) (main_arg11 : FVec F S1x32 .f32) (main_arg12 : FVec F S1 .f32) (main_v33 : IVec S_ 1) : IVec S_ 1 :=
  let main_v34 : FVec F S32x128 .f32 := Host.absf main_arg7
  let main_cst_12 : FVec F S_ .f32 := constant S_ .f32 0x7F800000#32
  let main_v35 : FVec F S32x128 .f32 := broadcastInDim S32x128 ![] bcast_S_S32x128 main_cst_12
  let main_v36 : IVec S32x128 1 := cmpf .olt main_v34 main_v35
  let main_c_13 : IVec S_ 1 := constantI S_ 1 1#1
  let main_v37 : IVec S_ 1 := (fun x v => Host.reduce IntOp.andi x v reducesTo_S32x128_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S1x32 .f32 := Host.absf main_arg9
  let main_cst_16 : FVec F S_ .f32 := constant S_ .f32 0x7F800000#32
  let main_v45 : FVec F S1x32 .f32 := broadcastInDim S1x32 ![] bcast_S_S1x32 main_cst_16
  let main_v46 : IVec S1x32 1 := cmpf .olt main_v44 main_v45
  let main_c_17 : IVec S_ 1 := constantI S_ 1 1#1
  let main_v47 : IVec S_ 1 := (fun x v => Host.reduce IntOp.andi x v reducesTo_S1x32_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_v48 main_v49 main_v50

def fn_part1 {F : FTy → Type} [FloatOps F] (main_arg4 : FVec F S128 .f32) (main_arg5 : FVec F S32x128 .f32) (main_arg6 : FVec F S32 .f32) (main_arg7 : FVec F S32x128 .f32) (main_arg8 : FVec F S32 .f32) (main_arg9 : FVec F S1x32 .f32) (main_arg10 : FVec F S1 .f32) (main_arg11 : FVec F S1x32 .f32) (main_arg12 : FVec F S1 .f32) (main_v13 : IVec S_ 1) (main_v16 : IVec S128x5 1) : IVec S_ 1 :=
  let main_c_5 : IVec S_ 1 := constantI S_ 1 1#1
  let main_v17 : IVec S_ 1 := (fun x v => Host.reduce IntOp.andi x v reducesTo_S128x5_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S32x128 .f32 := Host.absf main_arg5
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S524288x5 .f32) (main_arg1 : FVec F S5 .f32) (main_arg2 : FVec F S5 .f32) (main_arg3 : FVec F S128x5 .f32) (main_arg4 : FVec F S128 .f32) (main_arg5 : FVec F S32x128 .f32) (main_arg6 : FVec F S32 .f32) (main_arg7 : FVec F S32x128 .f32) (main_arg8 : FVec F S32 .f32) (main_arg9 : FVec F S1x32 .f32) (main_arg10 : FVec F S1 .f32) (main_arg11 : FVec F S1x32 .f32) (main_arg12 : FVec F S1 .f32) : IVec S_ 1 :=
  let main_v0 : FVec F S524288x5 .f32 := Host.absf main_arg0
  let main_cst : FVec F S_ .f32 := constant S_ .f32 0x7F800000#32
  let main_v1 : FVec F S524288x5 .f32 := broadcastInDim S524288x5 ![] bcast_S_S524288x5 main_cst
  let main_v2 : IVec S524288x5 1 := cmpf .olt main_v0 main_v1
  let main_c : IVec S_ 1 := constantI S_ 1 1#1
  let main_v3 : IVec S_ 1 := (fun x v => Host.reduce IntOp.andi x v reducesTo_S524288x5_S_d0_1 h_S_) main_v2 main_c
  let main_v4 : FVec F S5 .f32 := Host.absf main_arg1
  let main_cst_0 : FVec F S_ .f32 := constant S_ .f32 0x7F800000#32
  let main_v5 : FVec F S5 .f32 := broadcastInDim S5 ![] bcast_S_S5 main_cst_0
  let main_v6 : IVec S5 1 := cmpf .olt main_v4 main_v5
  let main_c_1 : IVec S_ 1 := constantI S_ 1 1#1
  let main_v7 : IVec S_ 1 := (fun x v => Host.reduce IntOp.andi x v reducesTo_S5_S_d0 h_S_) main_v6 main_c_1
  let main_v8 : IVec S_ 1 := andi main_v3 main_v7
  let main_v9 : FVec F S5 .f32 := Host.absf main_arg2
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S128x5 .f32 := Host.absf main_arg3
  let main_cst_4 : FVec F S_ .f32 := constant S_ .f32 0x7F800000#32
  let main_v15 : FVec F S128x5 .f32 := broadcastInDim S128x5 ![] bcast_S_S128x5 main_cst_4
  let main_v16 : IVec S128x5 1 := cmpf .olt main_v14 main_v15
  fn_part1 (F := F) main_arg4 main_arg5 main_arg6 main_arg7 main_arg8 main_arg9 main_arg10 main_arg11 main_arg12 main_v13 main_v16
-- ==== Kernel.lean ====
abbrev S524288x5 : Shape := ⟨2, ![524288, 5]⟩
abbrev S5 : Shape := ⟨1, ![5]⟩
abbrev S128x5 : Shape := ⟨2, ![128, 5]⟩
abbrev S128 : Shape := ⟨1, ![128]⟩
abbrev S32x128 : Shape := ⟨2, ![32, 128]⟩
abbrev S32 : Shape := ⟨1, ![32]⟩
abbrev S1x32 : Shape := ⟨2, ![1, 32]⟩
abbrev S1 : Shape := ⟨1, ![1]⟩
abbrev S524288x1 : Shape := ⟨2, ![524288, 1]⟩
abbrev S2048x5 : Shape := ⟨2, ![2048, 5]⟩
abbrev S2048x1 : Shape := ⟨2, ![2048, 1]⟩
abbrev S1x5 : Shape := ⟨2, ![1, 5]⟩
abbrev S5x128 : Shape := ⟨2, ![5, 128]⟩
abbrev S2048x128 : Shape := ⟨2, ![2048, 128]⟩
abbrev S1x128 : Shape := ⟨2, ![1, 128]⟩
abbrev S128x32 : Shape := ⟨2, ![128, 32]⟩
abbrev S2048x32 : Shape := ⟨2, ![2048, 32]⟩
abbrev S32x1 : Shape := ⟨2, ![32, 1]⟩
abbrev S1x1 : Shape := ⟨2, ![1, 1]⟩

abbrev nBuf : Space → Nat
  | .hbm => 14
  | .vmem => 16
  | .smem => 0
  | _ => 0

abbrev bufTy : (tb : Table) → Fin (tcTables nBuf tb) → BufTy
  | .hbm, ⟨0, _⟩ => ⟨S524288x5, .f32⟩
  | .hbm, ⟨1, _⟩ => ⟨S5, .f32⟩
  | .hbm, ⟨2, _⟩ => ⟨S5, .f32⟩
  | .hbm, ⟨3, _⟩ => ⟨S128x5, .f32⟩
  | .hbm, ⟨4, _⟩ => ⟨S128, .f32⟩
  | .hbm, ⟨5, _⟩ => ⟨S32x128, .f32⟩
  | .hbm, ⟨6, _⟩ => ⟨S32, .f32⟩
  | .hbm, ⟨7, _⟩ => ⟨S32x128, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S1x32, .f32⟩
  | .hbm, ⟨12, _⟩ => ⟨S1, .f32⟩
  | .hbm, ⟨13, _⟩ => ⟨S524288x1, .f32⟩
  | .local _ .vmem, ⟨0, _⟩ => ⟨S2048x5, .f32⟩
  | .local _ .vmem, ⟨1, _⟩ => ⟨S2048x5, .f32⟩
  | .local _ .vmem, ⟨2, _⟩ => ⟨S5, .f32⟩
  | .local _ .vmem, ⟨3, _⟩ => ⟨S5, .f32⟩
  | .local _ .vmem, ⟨4, _⟩ => ⟨S128x5, .f32⟩
  | .local _ .vmem, ⟨5, _⟩ => ⟨S128, .f32⟩
  | .local _ .vmem, ⟨6, _⟩ => ⟨S32x128, .f32⟩
  | .local _ .vmem, ⟨7, _⟩ => ⟨S32, .f32⟩
  | .local _ .vmem, ⟨8, _⟩ => ⟨S32x128, .f32⟩
  | .local _ .vmem, ⟨9, _⟩ => ⟨S32, .f32⟩
  | .local _ .vmem, ⟨10, _⟩ => ⟨S1x32, .f32⟩
  | .local _ .vmem, ⟨11, _⟩ => ⟨S1, .f32⟩
  | .local _ .vmem, ⟨12, _⟩ => ⟨S1x32, .f32⟩
  | .local _ .vmem, ⟨13, _⟩ => ⟨S1, .f32⟩
  | .local _ .vmem, ⟨14, _⟩ => ⟨S2048x1, .f32⟩
  | .local _ .vmem, ⟨15, _⟩ => ⟨S2048x1, .f32⟩
  | _, _ => ⟨S524288x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  inb_S2048x5_S2048x5_0_0 : ∀ a, (![0, 0] : Fin 2 → Nat) a + S2048x5.size a ≤ S2048x5.size a
  h_S2048x5 : 0 < S2048x5.numel
  inb_S5_S5_0 : ∀ a, (![0] : Fin 1 → Nat) a + S5.size a ≤ S5.size a
  h_S5 : 0 < S5.numel
  shapeCasts_S5_S1x5 : S5.ShapeCasts S1x5
  broadcasts_S1x5_S2048x5 : S1x5.Broadcasts S2048x5
  bitsLt_bf16_f32 : FTy.bits .bf16 < FTy.bits .f32
  inb_S128x5_S128x5_0_0 : ∀ a, (![0, 0] : Fin 2 → Nat) a + S128x5.size a ≤ S128x5.size a
  h_S128x5 : 0 < S128x5.numel
  transposes_S128x5_p1_0_S5x128 : S128x5.Transposes [1, 0] S5x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S32x128_S32x128_0_0 : ∀ a, (![0, 0] : Fin 2 → Nat) a + S32x128.size a ≤ S32x128.size a
  h_S32x128 : 0 < S32x128.numel
  transposes_S32x128_p1_0_S128x32 : S32x128.Transposes [1, 0] S128x32
  inb_S32_S32_0 : ∀ a, (![0] : Fin 1 → Nat) a + S32.size a ≤ S32.size a
  h_S32 : 0 < S32.numel
  shapeCasts_S32_S1x32 : S32.ShapeCasts S1x32
  broadcasts_S1x32_S2048x32 : S1x32.Broadcasts S2048x32
  inb_S1x32_S1x32_0_0 : ∀ a, (![0, 0] : Fin 2 → Nat) a + S1x32.size a ≤ S1x32.size a
  h_S1x32 : 0 < S1x32.numel
  transposes_S1x32_p1_0_S32x1 : S1x32.Transposes [1, 0] S32x1
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  slices_S2048x5_o0_1_S2048x1 : S2048x5.Slices ![0, 1] S2048x1
  slices_S2048x5_o0_3_S2048x1 : S2048x5.Slices ![0, 3] S2048x1
  slices_S2048x5_o0_0_S2048x1 : S2048x5.Slices ![0, 0] S2048x1
  slices_S2048x5_o0_2_S2048x1 : S2048x5.Slices ![0, 2] S2048x1
  inb_S2048x1_S2048x1_0_0 : ∀ a, (![0, 0] : Fin 2 → Nat) a + S2048x1.size a ≤ S2048x1.size a
  h_S2048x1 : 0 < S2048x1.numel
  dot_S2048x5_S5x128_S2048x128_1_0_0_1_n_n_wf : DotDims.WF S2048x5 S5x128 S2048x128 [1] [0] [0] [1] [] []
  dot_S2048x128_S128x32_S2048x32_1_0_0_1_n_n_wf : DotDims.WF S2048x128 S128x32 S2048x32 [1] [0] [0] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x5.size a ≤ S524288x5.size a
  hwx0_0 : ∀ i : grid0.Coords, EltTy.bits .f32 = 32 ∨ (Rect.block (s := S524288x5) S2048x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5.size a ≤ S5.size a
  hwx0_1 : ∀ i : grid0.Coords, EltTy.bits .f32 = 32 ∨ (Rect.block (s := S5) S5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5.size a ≤ S5.size a
  hwx0_2 : ∀ i : grid0.Coords, EltTy.bits .f32 = 32 ∨ (Rect.block (s := S5) S5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x5.size a ≤ S128x5.size a
  hwx0_3 : ∀ i : grid0.Coords, EltTy.bits .f32 = 32 ∨ (Rect.block (s := S128x5) S128x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S32x128.size a
  hwx0_7 : ∀ i : grid0.Coords, EltTy.bits .f32 = 32 ∨ (Rect.block (s := S32x128) S32x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x1.size a ≤ S524288x1.size a
  hwx0_13 : ∀ i : grid0.Coords, EltTy.bits .f32 = 32 ∨ (Rect.block (s := S524288x1) S2048x1.size (cc0_transform_13 i) (hinb0_13 i)).WholeWords (EltTy.packing .f32)

variable [Facts₀]

def dot_S2048x5_S5x128_S2048x128_1_0_0_1_n_n : DotDims S2048x5 S5x128 S2048x128 where
  lhsContracting := [1]
  rhsContracting := [0]
  lhsNonContracting := [0]
  rhsNonContracting := [1]
  lhsBatch := []
  rhsBatch := []
  wf := dot_S2048x5_S5x128_S2048x128_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_arg0) S2048x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S2048x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S524288x5 : Shape := ⟨2, ![524288, 5]⟩
abbrev S5 : Shape := ⟨1, ![5]⟩
abbrev S128x5 : Shape := ⟨2, ![128, 5]⟩
abbrev S128 : Shape := ⟨1, ![128]⟩
abbrev S32x128 : Shape := ⟨2, ![32, 128]⟩
abbrev S32 : Shape := ⟨1, ![32]⟩
abbrev S1x32 : Shape := ⟨2, ![1, 32]⟩
abbrev S1 : Shape := ⟨1, ![1]⟩
abbrev S1x5 : Shape := ⟨2, ![1, 5]⟩
abbrev S5x128 : Shape := ⟨2, ![5, 128]⟩
abbrev S524288x128 : Shape := ⟨2, ![524288, 128]⟩
abbrev S1x128 : Shape := ⟨2, ![1, 128]⟩
abbrev S_ : Shape := ⟨0, ![]⟩
abbrev S128x32 : Shape := ⟨2, ![128, 32]⟩
abbrev S524288x32 : Shape := ⟨2, ![524288, 32]⟩
abbrev S32x1 : Shape := ⟨2, ![32, 1]⟩
abbrev S524288x1 : Shape := ⟨2, ![524288, 1]⟩
abbrev S1x1 : Shape := ⟨2, ![1, 1]⟩
abbrev S524288 : Shape := ⟨1, ![524288]⟩

abbrev nBuf : Space → Nat
  | .hbm => 93
  | .vmem => 0
  | .smem => 0
  | _ => 0

abbrev bufTy : (tb : Table) → Fin (tcTables nBuf tb) → BufTy
  | .hbm, ⟨0, _⟩ => ⟨S524288x5, .f32⟩
  | .hbm, ⟨1, _⟩ => ⟨S5, .f32⟩
  | .hbm, ⟨2, _⟩ => ⟨S5, .f32⟩
  | .hbm, ⟨3, _⟩ => ⟨S128x5, .f32⟩
  | .hbm, ⟨4, _⟩ => ⟨S128, .f32⟩
  | .hbm, ⟨5, _⟩ => ⟨S32x128, .f32⟩
  | .hbm, ⟨6, _⟩ => ⟨S32, .f32⟩
  | .hbm, ⟨7, _⟩ => ⟨S32x128, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S1x32, .f32⟩
  | .hbm, ⟨12, _⟩ => ⟨S1, .f32⟩
  | .hbm, ⟨13, _⟩ => ⟨S1x5, .f32⟩
  | .hbm, ⟨14, _⟩ => ⟨S524288x5, .f32⟩
  | .hbm, ⟨15, _⟩ => ⟨S524288x5, .f32⟩
  | .hbm, ⟨16, _⟩ => ⟨S1x5, .f32⟩
  | .hbm, ⟨17, _⟩ => ⟨S524288x5, .f32⟩
  | .hbm, ⟨18, _⟩ => ⟨S524288x5, .f32⟩
  | .hbm, ⟨19, _⟩ => ⟨S5x128, .f32⟩
  | .hbm, ⟨20, _⟩ => ⟨S524288x128, .f32⟩
  | .hbm, ⟨21, _⟩ => ⟨S1x128, .f32⟩
  | .hbm, ⟨22, _⟩ => ⟨S524288x128, .f32⟩
  | .hbm, ⟨23, _⟩ => ⟨S524288x128, .f32⟩
  | .hbm, ⟨24, _⟩ => ⟨S_, .f32⟩
  | .hbm, ⟨25, _⟩ => ⟨S524288x128, .f32⟩
  | .hbm, ⟨26, _⟩ => ⟨S524288x128, .f32⟩
  | .hbm, ⟨27, _⟩ => ⟨S128x32, .f32⟩
  | .hbm, ⟨28, _⟩ => ⟨S524288x32, .f32⟩
  | .hbm, ⟨29, _⟩ => ⟨S1x32, .f32⟩
  | .hbm, ⟨30, _⟩ => ⟨S524288x32, .f32⟩
  | .hbm, ⟨31, _⟩ => ⟨S524288x32, .f32⟩
  | .hbm, ⟨32, _⟩ => ⟨S_, .f32⟩
  | .hbm, ⟨33, _⟩ => ⟨S524288x32, .f32⟩
  | .hbm, ⟨34, _⟩ => ⟨S524288x32, .f32⟩
  | .hbm, ⟨35, _⟩ => ⟨S128x32, .f32⟩
  | .hbm, ⟨36, _⟩ => ⟨S524288x32, .f32⟩
  | .hbm, ⟨37, _⟩ => ⟨S1x32, .f32⟩
  | .hbm, ⟨38, _⟩ => ⟨S524288x32, .f32⟩
  | .hbm, ⟨39, _⟩ => ⟨S524288x32, .f32⟩
  | .hbm, ⟨40, _⟩ => ⟨S_, .f32⟩
  | .hbm, ⟨41, _⟩ => ⟨S524288x32, .f32⟩
  | .hbm, ⟨42, _⟩ => ⟨S524288x32, .f32⟩
  | .hbm, ⟨43, _⟩ => ⟨S32x1, .f32⟩
  | .hbm, ⟨44, _⟩ => ⟨S524288x1, .f32⟩
  | .hbm, ⟨45, _⟩ => ⟨S1x1, .f32⟩
  | .hbm, ⟨46, _⟩ => ⟨S524288x1, .f32⟩
  | .hbm, ⟨47, _⟩ => ⟨S524288x1, .f32⟩
  | .hbm, ⟨48, _⟩ => ⟨S32x1, .f32⟩
  | .hbm, ⟨49, _⟩ => ⟨S524288x1, .f32⟩
  | .hbm, ⟨50, _⟩ => ⟨S1x1, .f32⟩
  | .hbm, ⟨51, _⟩ => ⟨S524288x1, .f32⟩
  | .hbm, ⟨52, _⟩ => ⟨S524288x1, .f32⟩
  | .hbm, ⟨53, _⟩ => ⟨S524288x1, .f32⟩
  | .hbm, ⟨54, _⟩ => ⟨S524288x1, .f32⟩
  | .hbm, ⟨55, _⟩ => ⟨S_, .f32⟩
  | .hbm, ⟨56, _⟩ => ⟨S524288x1, .f32⟩
  | .hbm, ⟨57, _⟩ => ⟨S524288x1, .f32⟩
  | .hbm, ⟨58, _⟩ => ⟨S_, .f32⟩
  | .hbm, ⟨59, _⟩ => ⟨S524288x1, .f32⟩
  | .hbm, ⟨60, _⟩ => ⟨S524288x1, .f32⟩
  | .hbm, ⟨61, _⟩ => ⟨S_, .f32⟩
  | .hbm, ⟨62, _⟩ => ⟨S524288x1, .f32⟩
  | .hbm, ⟨63, _⟩ => ⟨S524288x1, .f32⟩
  | .hbm, ⟨64, _⟩ => ⟨S524288x1, .f32⟩
  | .hbm, ⟨65, _⟩ => ⟨S524288, .f32⟩
  | .hbm, ⟨66, _⟩ => ⟨S524288x1, .f32⟩
  | .hbm, ⟨67, _⟩ => ⟨S524288, .f32⟩
  | .hbm, ⟨68, _⟩ => ⟨S524288, .f32⟩
  | .hbm, ⟨69, _⟩ => ⟨S524288x1, .f32⟩
  | .hbm, ⟨70, _⟩ => ⟨S524288x1, .f32⟩
  | .hbm, ⟨71, _⟩ => ⟨S524288, .f32⟩
  | .hbm, ⟨72, _⟩ => ⟨S524288x1, .f32⟩
  | .hbm, ⟨73, _⟩ => ⟨S524288, .f32⟩
  | .hbm, ⟨74, _⟩ => ⟨S524288, .f32⟩
  | .hbm, ⟨75, _⟩ => ⟨S524288x1, .f32⟩
  | .hbm, ⟨76, _⟩ => ⟨S524288, .f32⟩
  | .hbm, ⟨77, _⟩ => ⟨S_, .f32⟩
  | .hbm, ⟨78, _⟩ => ⟨S524288, .f32⟩
  | .hbm, ⟨79, _⟩ => ⟨S524288, .f32⟩
  | .hbm, ⟨80, _⟩ => ⟨S524288, .f32⟩
  | .hbm, ⟨81, _⟩ => ⟨S524288x1, .f32⟩
  | .hbm, ⟨82, _⟩ => ⟨S524288x1, .f32⟩
  | .hbm, ⟨83, _⟩ => ⟨S524288x1, .f32⟩
  | .hbm, ⟨84, _⟩ => ⟨S524288x1, .f32⟩
  | .hbm, ⟨85, _⟩ => ⟨S_, .f32⟩
  | .hbm, ⟨86, _⟩ => ⟨S524288x1, .f32⟩
  | .hbm, ⟨87, _⟩ => ⟨S524288x1, .f32⟩
  | .hbm, ⟨88, _⟩ => ⟨S524288x1, .i1⟩
  | .hbm, ⟨89, _⟩ => ⟨S_, .f32⟩
  | .hbm, ⟨90, _⟩ => ⟨S524288x1, .f32⟩
  | .hbm, ⟨91, _⟩ => ⟨S524288x1, .f32⟩
  | .hbm, ⟨92, _⟩ => ⟨S524288x1, .f32⟩
  | _, _ => ⟨S524288x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_cst : Ref sig .tc := ⟨.hbm, 24, rfl⟩
abbrev main_call0_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_cst : Ref sig .tc := ⟨.hbm, 32, rfl⟩
abbrev main_call1_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call2_cst : Ref sig .tc := ⟨.hbm, 40, rfl⟩
abbrev main_call2_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst : Ref sig .tc := ⟨.hbm, 55, rfl⟩
abbrev main_v36 : Ref sig .tc := ⟨.hbm, 56, rfl⟩
abbrev main_v37 : Ref sig .tc := ⟨.hbm, 57, rfl⟩
abbrev main_cst_0 : Ref sig .tc := ⟨.hbm, 58, rfl⟩
abbrev main_v38 : Ref sig .tc := ⟨.hbm, 59, rfl⟩
abbrev main_v39 : Ref sig .tc := ⟨.hbm, 60, rfl⟩
abbrev main_cst_1 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_2 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_3 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_4 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  bcast_S5_S1x5_1 : S5.BroadcastsInDim S1x5 (![1] : Fin 1 → Fin S1x5.rank)
  bcast_S1x5_S524288x5_0_1 : S1x5.BroadcastsInDim S524288x5 (![0, 1] : Fin 2 → Fin S524288x5.rank)
  transposes_S128x5_S5x128_1_0 : S128x5.Transposes [1, 0] S5x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  transposes_S32x128_S128x32_1_0 : S32x128.Transposes [1, 0] S128x32
  bcast_S32_S1x32_1 : S32.BroadcastsInDim S1x32 (![1] : Fin 1 → Fin S1x32.rank)
  bcast_S1x32_S524288x32_0_1 : S1x32.BroadcastsInDim S524288x32 (![0, 1] : Fin 2 → Fin S524288x32.rank)
  bcast_S_S524288x32 : S_.BroadcastsInDim S524288x32 (![] : Fin 0 → Fin S524288x32.rank)
  transposes_S1x32_S32x1_1_0 : S1x32.Transposes [1, 0] S32x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  bcast_S_S524288x1 : S_.BroadcastsInDim S524288x1 (![] : Fin 0 → Fin S524288x1.rank)
  slices_S524288x5_S524288x1_0_1 : S524288x5.Slices ![0, 1] S524288x1
  shapeCasts_S524288x1_S524288 : S524288x1.ShapeCasts S524288
  slices_S524288x5_S524288x1_0_3 : S524288x5.Slices ![0, 3] S524288x1
  bcast_S524288_S524288x1_0 : S524288.BroadcastsInDim S524288x1 (![0] : Fin 1 → Fin S524288x1.rank)
  slices_S524288x5_S524288x1_0_0 : S524288x5.Slices ![0, 0] S524288x1
  slices_S524288x5_S524288x1_0_2 : S524288x5.Slices ![0, 2] S524288x1
  bcast_S_S524288 : S_.BroadcastsInDim S524288 (![] : Fin 0 → Fin S524288.rank)
  dot_S524288x5_S5x128_S524288x128_1_0_0_1_n_n_wf : DotDims.WF S524288x5 S5x128 S524288x128 [1] [0] [0] [1] [] []
  dot_S524288x128_S128x32_S524288x32_1_0_0_1_n_n_wf : DotDims.WF S524288x128 S128x32 S524288x32 [1] [0] [0] [1] [] []
  dot_S524288x32_S32x1_S524288x1_1_0_0_1_n_n_wf : DotDims.WF S524288x32 S32x1 S524288x1 [1] [0] [0] [1] [] []

variable [Facts₀]

def dot_S524288x5_S5x128_S524288x128_1_0_0_1_n_n : DotDims S524288x5 S5x128 S524288x128 where
  lhsContracting := [1]
  rhsContracting := [0]
  lhsNonContracting := [0]
  rhsNonContracting := [1]
  lhsBatch := []
  rhsBatch := []
  wf := dot_S524288x5_S5x128_S524288x128_1_0_0_1_n_n_wf
def dot_S524288x128_S128x32_S524288x32_1_0_0_1_n_n : DotDims S524288x128 S128x32 S524288x32 where
  lhsContracting := [1]
  rhsContracting := [0]
  lhsNonContracting := [0]
  rhsNonContracting := [1]
  lhsBatch := []
  rhsBatch := []
  wf := dot_S524288x128_S128x32_S524288x32_1_0_0_1_n_n_wf
def dot_S524288x32_S32x1_S524288x1_1_0_0_1_n_n : DotDims S524288x32 S32x1 S524288x1 where
  lhsContracting := [1]
  rhsContracting := [0]
  lhsNonContracting := [0]
  rhsNonContracting := [1]
  lhsBatch := []
  rhsBatch := []
  wf := dot_S524288x32_S32x1_S524288x1_1_0_0_1_n_n_wf

class Facts : Prop extends Facts₀ where

variable [Facts]
-- ==== Proof.RowSpec.lean ====
/-
  What ONE ROW of the result is, as a function of that row of `x` and of the weights, on the extended reals.

  The network is  x ↦ h₁ = relu (x W₁ᵀ + b₁),  a = relu (h₁ W₂₁ᵀ + b₂₁),  g = relu (h₁ W₂₂ᵀ + b₂₂),
  p = a · w₃₁ + b₃₁,  q = g · w₃₂ + b₃₂,  and with the de-normalised state s_j = x_j σ_j + μ_j the barrier value is
  h = (s₁ − s₃) + 4 σ(q) · ((s₀ − s₂) − c · s₃),  c the f32 word of 1.8.  The result is the minimiser of
  ½u² + p u subject to c u ≤ h:  −p when c (−p) ≤ h, else h / c.

  Every float constant stays the extended real its f32 word denotes: both programs spell the same words, so only the
  zero and the one are ever evaluated (for `0 − p = −p` and for the logistic function written out as a quotient).
-/
import Idealize.ShloMosaic.PureOps.Ideal
import Idealize.ShloMosaic.PureOps.Ideal.Laws
import Idealize.ShloMosaic.Lib.ValueIdx

noncomputable section

namespace Cert.Barrier

open Idealize.ShloMosaic Idealize.ShloMosaic.ValueIdx

/-- The words of the four constants the programs spell: 0, 1, 4 and 1.8 in f32. -/
abbrev zeroW : EReal := Ideal.ofBits .f32 0x00000000#32
abbrev oneW : EReal := Ideal.ofBits .f32 0x3F800000#32
abbrev fourW : EReal := Ideal.ofBits .f32 0x40800000#32
abbrev cW : EReal := Ideal.ofBits .f32 0x3FE66666#32

/-- The de-normalised state of a row: `s_j = x_j · σ_j + μ_j`. -/
def state (x sd mu : Fin 5 → EReal) (j : Fin 5) : EReal := x j * sd j + mu j

/-- Unit `k` of a dense layer with a rectifier: `max (∑_j v_j W_kj + b_k) 0`. -/
def reluLayer {d n : Nat} (v : Fin d → EReal) (W : Fin n → Fin d → EReal) (b : Fin n → EReal) (k : Fin n) : EReal :=
  max ((∑ j : Fin d, v j * W k j) + b k) zeroW

/-- A dense layer with one output and no rectifier: `∑_l v_l w_l + b`. -/
def head {d : Nat} (v w : Fin d → EReal) (b : EReal) : EReal := (∑ l : Fin d, v l * w l) + b

/-- The barrier value `h = (s₁ − s₃) + 4 σ(q) ((s₀ − s₂) − c s₃)`. -/
def barrier (s : Fin 5 → EReal) (q : EReal) : EReal :=
  (s 1 - s 3) + (fourW * Ideal.logistic q) * ((s 0 - s 2) - cW * s 3)

/-- The one-dimensional program's minimiser: `−p` where that is feasible, else the boundary `h / c`. -/
def qp (p h : EReal) : EReal :=
  Scalar.select (Ideal.cmp .ole (cW * (-p)) h) (-p) (Ideal.div h cW)

/-- The row's result. -/
def rowOut (x sd mu : Fin 5 → EReal) (W1 : Fin 128 → Fin 5 → EReal) (b1 : Fin 128 → EReal)
    (W21 : Fin 32 → Fin 128 → EReal) (b21 : Fin 32 → EReal) (W22 : Fin 32 → Fin 128 → EReal) (b22 : Fin 32 → EReal)
    (w31 : Fin 32 → EReal) (b31 : EReal) (w32 : Fin 32 → EReal) (b32 : EReal) : EReal :=
  qp (head (reluLayer (reluLayer x W1 b1) W21 b21) w31 b31)
    (barrier (state x sd mu) (head (reluLayer (reluLayer x W1 b1) W22 b22) w32 b32))

/-- The whole result array: entry (R, 0) is `rowOut` of row R of `x` and the weights (μ and σ the second and third
    arguments, as both programs take them). -/
def arrayOut (x : (⟨2, ![524288, 5]⟩ : Shape).Idx → EReal) (mu sd : (⟨1, ![5]⟩ : Shape).Idx → EReal)
    (W1 : (⟨2, ![128, 5]⟩ : Shape).Idx → EReal) (b1 : (⟨1, ![128]⟩ : Shape).Idx → EReal)
    (W21 : (⟨2, ![32, 128]⟩ : Shape).Idx → EReal) (b21 : (⟨1, ![32]⟩ : Shape).Idx → EReal)
    (W22 : (⟨2, ![32, 128]⟩ : Shape).Idx → EReal) (b22 : (⟨1, ![32]⟩ : Shape).Idx → EReal)
    (W31 : (⟨2, ![1, 32]⟩ : Shape).Idx → EReal) (b31 : (⟨1, ![1]⟩ : Shape).Idx → EReal)
    (W32 : (⟨2, ![1, 32]⟩ : Shape).Idx → EReal) (b32 : (⟨1, ![1]⟩ : Shape).Idx → EReal) :
    (⟨2, ![524288, 1]⟩ : Shape).Idx → EReal := fun i =>
  rowOut (fun j => x (ix2 (i 0) j)) (fun j => sd (ix1 j)) (fun j => mu (ix1 j))
    (fun k j => W1 (ix2 k j)) (fun k => b1 (ix1 k)) (fun l k => W21 (ix2 l k)) (fun l => b21 (ix1 l))
    (fun l k => W22 (ix2 l k)) (fun l => b22 (ix1 l))
    (fun l => W31 (ix2 (0 : Fin 1) l)) (b31 (ix1 (0 : Fin 1))) (fun l => W32 (ix2 (0 : Fin 1) l)) (b32 (ix1 (0 : Fin 1)))

/-- The zero word denotes `0`, so subtracting from it negates. -/
theorem zeroW_sub (p : EReal) : zeroW - p = -p := by
  show Ideal.ofBits .f32 0x00000000#32 - p = -p
  rw [Ideal.ofBits_zero_f32, zero_sub]

/-- The one word denotes `1`. -/
theorem oneW_eq : oneW = 1 := by
  show Ideal.ofBits .f32 0x3F800000#32 = 1
  simp [Ideal.ofBits, Ideal.ieee, -EReal.coe_mul]; norm_num

/-- The logistic function written out as `1 / (1 + e^(−q))` over the one word is the logistic function. -/
theorem logistic_quotient (q : EReal) : Ideal.div oneW (oneW + Ideal.exp (-q)) = Ideal.logistic q := by
  rw [oneW_eq]; rfl

end Cert.Barrier

end
-- ==== Proof.LibDense.lean ====
/-
  Dense layers read at an index, at the ideal values, at any extents.

  A `tpu.matmul` of an [M, K] matrix with a [K, N] matrix into the zero accumulator, whose dimension numbers contract
  the shared axis and keep the rows of the left and the columns of the right, is at (p, c) the sum over k of
  A (p, k) · B (k, c); with B the transpose of a weight matrix W : [N, K] that is ∑ₖ A (p, k) · W (c, k), a row of A
  against a row of W. A bias vector [N] cast to [1, N] and broadcast over the M rows adds b c. The four facts about the
  dimension numbers (which operand coordinate is the output's row or column and which is the contraction position) are
  hypotheses: a record with literal dimension numbers proves each by deciding the membership tests of its index maps.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-- The product into the zero accumulator, at (p, c): `∑ₖ A (p, k) · B (k, c)`. -/
theorem matmul_zero_ix2 {M K N : Nat} {φ₁ φ₂ : FTy}
    (D : DotDims ⟨2, ![M, K]⟩ ⟨2, ![K, N]⟩ ⟨2, ![M, N]⟩) (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision) (A : FVec Ideal ⟨2, ![M, K]⟩ φ₁) (B : FVec Ideal ⟨2, ![K, N]⟩ φ₂)
    (p : Fin M) (c : Fin N) :
    FloatOps.matmul D prec A B (constant ⟨2, ![M, N]⟩ .f32 0x00000000#32) (ix2 p c)
      = ∑ k : Fin K, A (ix2 p k) * B (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector [N] cast to [1, N] and broadcast over M rows reads, at (p, c), its entry c. -/
theorem rowBias {α : Type} {M N : Nat} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (c : Fin N) :
    broadcastTo ⟨2, ![M, N]⟩ (shapeCast ⟨2, ![1, N]⟩ b h1) h2 (ix2 p c) = b (ix1 c) := by
  rw [broadcastTo_1b_ab_apply, shapeCast_a_1a_apply]

/-- A dense layer `A · Wᵀ + b` at (p, c): row p of A against row c of W, plus b c. -/
theorem dense_at {M K N : Nat} {φ₁ φ₂ : FTy}
    (D : DotDims ⟨2, ![M, K]⟩ ⟨2, ![K, N]⟩ ⟨2, ![M, N]⟩) (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision) (A : FVec Ideal ⟨2, ![M, K]⟩ φ₁) (W : FVec Ideal ⟨2, ![N, K]⟩ φ₂)
    (hT : (⟨2, ![N, K]⟩ : Shape).Transposes [1, 0] ⟨2, ![K, N]⟩) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (p : Fin M) (c : Fin N) :
    addf (matmul D prec A (transpose ⟨2, ![K, N]⟩ [1, 0] W hT) (constant ⟨2, ![M, N]⟩ .f32 0x00000000#32))
        (broadcastTo ⟨2, ![M, N]⟩ (shapeCast ⟨2, ![1, N]⟩ b h1) h2) (ix2 p c)
      = (∑ k : Fin K, A (ix2 p k) * W (ix2 c k)) + b (ix1 c) := by
  rw [addf_apply, rowBias]
  simp only [matmul]
  rw [matmul_zero_ix2 D hr hs l0 l1 r0 r1]
  refine congrArg (· + b (ix1 c)) (Finset.sum_congr rfl fun k _ => ?_)
  rw [transpose_ix2_apply W hT k c]

end Cert.Dense

end
-- ==== Proof.KernelRows.lean ====
/-
  The kernel's body, row by row. Each of the body's pure values is read at a row r of the 2048-row block: the
  de-normalised state is `state` of row r of the x block; the first hidden layer is `reluLayer` of that row against W₁
  (the conversions to bf16 are the identity on the extended reals); the two branches are `reluLayer` of the hidden row;
  the two heads are `head`; and the stored value is the one-dimensional program's minimiser `qp` of the first head and
  the barrier value. So the stored block at (r, 0) is `rowOut` of row r of the x block and the weights.
-/
import proofs.«139626_j31104153158091_1_alg».proof.Proof.Gen.KernelIdeal.Skeleton
import proofs.«139626_j31104153158091_1_alg».proof.Proof.RowSpec
import proofs.«139626_j31104153158091_1_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx Cert.Barrier Cert.Dense

/-! ## The three products' dimension numbers: which operand coordinate is which -/

abbrev D1 := dot_S2048x5_S5x128_S2048x128_1_0_0_1_n_n
abbrev D2 := dot_S2048x128_S128x32_S2048x32_1_0_0_1_n_n
abbrev D3 := dot_S2048x32_S32x1_S2048x1_1_0_0_1_n_n

theorem D1_l0 (i : S2048x128.Idx) (q : dot_S2048x5_S5x128_S2048x128_1_0_0_1_n_n.contr.Idx) :
    (dot_S2048x5_S5x128_S2048x128_1_0_0_1_n_n.lhsIdx i q 0).val = (i 0).val := by
  unfold DotDims.lhsIdx
  rw [dif_neg (show ¬(0 : Fin S2048x5.rank) ∈ dot_S2048x5_S5x128_S2048x128_1_0_0_1_n_n.lhsBatch by decide), dif_pos (show (0 : Fin S2048x5.rank) ∈ dot_S2048x5_S5x128_S2048x128_1_0_0_1_n_n.lhsNonContracting by decide)]
  rfl
theorem D1_l1 (i : S2048x128.Idx) (q : dot_S2048x5_S5x128_S2048x128_1_0_0_1_n_n.contr.Idx) :
    (dot_S2048x5_S5x128_S2048x128_1_0_0_1_n_n.lhsIdx i q 1).val = (q ⟨0, by decide⟩).val :=
  dot_S2048x5_S5x128_S2048x128_1_0_0_1_n_n.lhsIdx_val_of_single rfl i q
theorem D1_r0 (i : S2048x128.Idx) (q : dot_S2048x5_S5x128_S2048x128_1_0_0_1_n_n.contr.Idx) :
    (dot_S2048x5_S5x128_S2048x128_1_0_0_1_n_n.rhsIdx i q 0).val = (q ⟨0, by decide⟩).val :=
  dot_S2048x5_S5x128_S2048x128_1_0_0_1_n_n.rhsIdx_val_of_single rfl i q
theorem D1_r1 (i : S2048x128.Idx) (q : dot_S2048x5_S5x128_S2048x128_1_0_0_1_n_n.contr.Idx) :
    (dot_S2048x5_S5x128_S2048x128_1_0_0_1_n_n.rhsIdx i q 1).val = (i 1).val := by
  unfold DotDims.rhsIdx
  rw [dif_neg (show ¬(1 : Fin S5x128.rank) ∈ dot_S2048x5_S5x128_S2048x128_1_0_0_1_n_n.rhsBatch by decide), dif_pos (show (1 : Fin S5x128.rank) ∈ dot_S2048x5_S5x128_S2048x128_1_0_0_1_n_n.rhsNonContracting by decide)]
  rfl

theorem D2_l0 (i : S2048x32.Idx) (q : dot_S2048x128_S128x32_S2048x32_1_0_0_1_n_n.contr.Idx) :
    (dot_S2048x128_S128x32_S2048x32_1_0_0_1_n_n.lhsIdx i q 0).val = (i 0).val := by
  unfold DotDims.lhsIdx
  rw [dif_neg (show ¬(0 : Fin S2048x128.rank) ∈ dot_S2048x128_S128x32_S2048x32_1_0_0_1_n_n.lhsBatch by decide), dif_pos (show (0 : Fin S2048x128.rank) ∈ dot_S2048x128_S128x32_S2048x32_1_0_0_1_n_n.lhsNonContracting by decide)]
  rfl
theorem D2_l1 (i : S2048x32.Idx) (q : dot_S2048x128_S128x32_S2048x32_1_0_0_1_n_n.contr.Idx) :
    (dot_S2048x128_S128x32_S2048x32_1_0_0_1_n_n.lhsIdx i q 1).val = (q ⟨0, by decide⟩).val :=
  dot_S2048x128_S128x32_S2048x32_1_0_0_1_n_n.lhsIdx_val_of_single rfl i q
theorem D2_r0 (i : S2048x32.Idx) (q : dot_S2048x128_S128x32_S2048x32_1_0_0_1_n_n.contr.Idx) :
    (dot_S2048x128_S128x32_S2048x32_1_0_0_1_n_n.rhsIdx i q 0).val = (q ⟨0, by decide⟩).val :=
  dot_S2048x128_S128x32_S2048x32_1_0_0_1_n_n.rhsIdx_val_of_single rfl i q
theorem D2_r1 (i : S2048x32.Idx) (q : dot_S2048x128_S128x32_S2048x32_1_0_0_1_n_n.contr.Idx) :
    (dot_S2048x128_S128x32_S2048x32_1_0_0_1_n_n.rhsIdx i q 1).val = (i 1).val := by
  unfold DotDims.rhsIdx
  rw [dif_neg (show ¬(1 : Fin S128x32.rank) ∈ dot_S2048x128_S128x32_S2048x32_1_0_0_1_n_n.rhsBatch by decide), dif_pos (show (1 : Fin S128x32.rank) ∈ dot_S2048x128_S128x32_S2048x32_1_0_0_1_n_n.rhsNonContracting by decide)]
  rfl

theorem D3_l0 (i : S2048x1.Idx) (q : dot_S2048x32_S32x1_S2048x1_1_0_0_1_n_n.contr.Idx) :
    (dot_S2048x32_S32x1_S2048x1_1_0_0_1_n_n.lhsIdx i q 0).val = (i 0).val := by
  unfold DotDims.lhsIdx
  rw [dif_neg (show ¬(0 : Fin S2048x32.rank) ∈ dot_S2048x32_S32x1_S2048x1_1_0_0_1_n_n.lhsBatch by decide), dif_pos (show (0 : Fin S2048x32.rank) ∈ dot_S2048x32_S32x1_S2048x1_1_0_0_1_n_n.lhsNonContracting by decide)]
  rfl
theorem D3_l1 (i : S2048x1.Idx) (q : dot_S2048x32_S32x1_S2048x1_1_0_0_1_n_n.contr.Idx) :
    (dot_S2048x32_S32x1_S2048x1_1_0_0_1_n_n.lhsIdx i q 1).val = (q ⟨0, by decide⟩).val :=
  dot_S2048x32_S32x1_S2048x1_1_0_0_1_n_n.lhsIdx_val_of_single rfl i q
theorem D3_r0 (i : S2048x1.Idx) (q : dot_S2048x32_S32x1_S2048x1_1_0_0_1_n_n.contr.Idx) :
    (dot_S2048x32_S32x1_S2048x1_1_0_0_1_n_n.rhsIdx i q 0).val = (q ⟨0, by decide⟩).val :=
  dot_S2048x32_S32x1_S2048x1_1_0_0_1_n_n.rhsIdx_val_of_single rfl i q
theorem D3_r1 (i : S2048x1.Idx) (q : dot_S2048x32_S32x1_S2048x1_1_0_0_1_n_n.contr.Idx) :
    (dot_S2048x32_S32x1_S2048x1_1_0_0_1_n_n.rhsIdx i q 1).val = (i 1).val := by
  unfold DotDims.rhsIdx
  rw [dif_neg (show ¬(1 : Fin S32x1.rank) ∈ dot_S2048x32_S32x1_S2048x1_1_0_0_1_n_n.rhsBatch by decide), dif_pos (show (1 : Fin S32x1.rank) ∈ dot_S2048x32_S32x1_S2048x1_1_0_0_1_n_n.rhsNonContracting by decide)]
  rfl

/-! ## The body's values at a row -/

/-- The de-normalised state at (r, j): `x (r, j) · σ j + μ j`. -/
theorem state_at (v0 : Vec Ideal S2048x5 .f32) (v1 v3 : Vec Ideal S5 .f32) (r : Fin 2048) (j : Fin 5) :
    k0_pay1 v0 v1 v3 (ix2 r j) = state (fun j => v0 (ix2 r j)) (fun j => v3 (ix1 j)) (fun j => v1 (ix1 j)) j := by
  unfold k0_pay1
  refine (addf_apply _ _ _).trans ?_
  rw [rowBias]
  refine congrArg (· + v1 (ix1 j)) ?_
  refine (mulf_apply _ _ _).trans ?_
  rw [rowBias]

/-- The first hidden layer at (r, k): unit k of the rectified dense layer of row r of the x block against W₁, b₁. -/
theorem hidden_at (v0 : Vec Ideal S2048x5 .f32) (v10 : Vec Ideal S128x5 .f32) (v14 : Vec Ideal S128 .f32)
    (r : Fin 2048) (k : Fin 128) :
    k0_pay2 v0 v10 v14 (ix2 r k)
      = reluLayer (fun j => v0 (ix2 r j)) (fun k j => v10 (ix2 k j)) (fun k => v14 (ix1 k)) k := by
  unfold k0_pay2 reluLayer
  refine congrArg (max · zeroW) ?_
  exact dense_at dot_S2048x5_S5x128_S2048x128_1_0_0_1_n_n rfl rfl D1_l0 D1_l1 D1_r0 D1_r1 none
    (truncf .bf16 v0 bitsLt_bf16_f32) (truncf .bf16 v10 bitsLt_bf16_f32) transposes_S128x5_p1_0_S5x128 v14
    shapeCasts_S128_S1x128 broadcasts_S1x128_S2048x128 r k

/-- The first branch at (r, l): unit l of the rectified dense layer of the hidden row against W₂₁, b₂₁. -/
theorem branchA_at (v0 : Vec Ideal S2048x5 .f32) (v10 : Vec Ideal S128x5 .f32) (v14 : Vec Ideal S128 .f32)
    (v21 : Vec Ideal S32x128 .f32) (v25 : Vec Ideal S32 .f32) (r : Fin 2048) (l : Fin 32) :
    k0_pay3 v0 v10 v14 v21 v25 (ix2 r l)
      = reluLayer (fun k => k0_pay2 v0 v10 v14 (ix2 r k)) (fun l k => v21 (ix2 l k)) (fun l => v25 (ix1 l)) l := by
  unfold k0_pay3 reluLayer
  refine congrArg (max · zeroW) ?_
  exact dense_at dot_S2048x128_S128x32_S2048x32_1_0_0_1_n_n rfl rfl D2_l0 D2_l1 D2_r0 D2_r1 none
    (k0_pay2 v0 v10 v14) (truncf .bf16 v21 bitsLt_bf16_f32) transposes_S32x128_p1_0_S128x32 v25
    shapeCasts_S32_S1x32 broadcasts_S1x32_S2048x32 r l

/-- The second branch at (r, l), rectified against the zero word: unit l of the rectified dense layer of the hidden
    row against W₂₂, b₂₂. -/
theorem branchB_at (v0 : Vec Ideal S2048x5 .f32) (v10 : Vec Ideal S128x5 .f32) (v14 : Vec Ideal S128 .f32)
    (v31 : Vec Ideal S32x128 .f32) (v35 : Vec Ideal S32 .f32) (r : Fin 2048) (l : Fin 32) :
    max (k0_pay4 v0 v10 v14 v31 v35 (ix2 r l)) zeroW
      = reluLayer (fun k => k0_pay2 v0 v10 v14 (ix2 r k)) (fun l k => v31 (ix2 l k)) (fun l => v35 (ix1 l)) l := by
  unfold k0_pay4 reluLayer
  refine congrArg (max · zeroW) ?_
  exact dense_at dot_S2048x128_S128x32_S2048x32_1_0_0_1_n_n rfl rfl D2_l0 D2_l1 D2_r0 D2_r1 none
    (k0_pay2 v0 v10 v14) (truncf .bf16 v31 bitsLt_bf16_f32) transposes_S32x128_p1_0_S128x32 v35
    shapeCasts_S32_S1x32 broadcasts_S1x32_S2048x32 r l

/-- The rectifier's zero vector at any index is the zero word. -/
theorem zeros_at (i : S2048x32.Idx) : k0_pay5 (F := Ideal) i = zeroW := rfl

/-- The stored value at (r, 0): the minimiser `qp` of the first head of row r and the barrier value of the state's row
    and the second head. The body negates by subtracting from the zero word. -/
theorem stored_at (v8 : FVec Ideal S2048x5 .f32) (v30 v38 v39 : FVec Ideal S2048x32 .f32) (v42 : Vec Ideal S1x32 .f32)
    (v46 : Vec Ideal S1 .f32) (v51 : Vec Ideal S1x32 .f32) (v55 : Vec Ideal S1 .f32) (r : Fin 2048) :
    k0_pay6 v8 v30 v38 v39 v42 v46 v51 v55 (ix2 r (0 : Fin 1))
      = qp (head (fun l => v30 (ix2 r l)) (fun l => v42 (ix2 (0 : Fin 1) l)) (v46 (ix1 (0 : Fin 1))))
          (barrier (fun j => v8 (ix2 r j))
            (head (fun l => max (v38 (ix2 r l)) (v39 (ix2 r l))) (fun l => v51 (ix2 (0 : Fin 1) l)) (v55 (ix1 (0 : Fin 1))))) := by
  have hA := dense_at dot_S2048x32_S32x1_S2048x1_1_0_0_1_n_n rfl rfl D3_l0 D3_l1 D3_r0 D3_r1 none
    (truncf .bf16 v30 bitsLt_bf16_f32) (truncf .bf16 v42 bitsLt_bf16_f32) transposes_S1x32_p1_0_S32x1 v46
    shapeCasts_S1_S1x1 broadcasts_S1x1_S2048x1 r (0 : Fin 1)
  have hB := dense_at dot_S2048x32_S32x1_S2048x1_1_0_0_1_n_n rfl rfl D3_l0 D3_l1 D3_r0 D3_r1 none
    (truncf .bf16 (maximumf v38 v39) bitsLt_bf16_f32) (truncf .bf16 v51 bitsLt_bf16_f32) transposes_S1x32_p1_0_S32x1 v55
    shapeCasts_S1_S1x1 broadcasts_S1x1_S2048x1 r (0 : Fin 1)
  have s0 := slice2_axis1_apply 0 v8 slices_S2048x5_o0_0_S2048x1 r (0 : Fin 1) (0 : Fin 5) rfl
  have s1 := slice2_axis1_apply 1 v8 slices_S2048x5_o0_1_S2048x1 r (0 : Fin 1) (1 : Fin 5) rfl
  have s2 := slice2_axis1_apply 2 v8 slices_S2048x5_o0_2_S2048x1 r (0 : Fin 1) (2 : Fin 5) rfl
  have s3 := slice2_axis1_apply 3 v8 slices_S2048x5_o0_3_S2048x1 r (0 : Fin 1) (3 : Fin 5) rfl
  unfold k0_pay6 qp barrier
  show Scalar.select (Ideal.cmp .ole (cW * (zeroW - _)) ((_ - _) + (fourW * Ideal.logistic _) * ((_ - _) - cW * _)))
        (zeroW - _) (Ideal.div ((_ - _) + (fourW * Ideal.logistic _) * ((_ - _) - cW * _)) cW) = _
  rw [zeroW_sub, hA, hB, s0, s1, s2, s3]
  rfl

/-- THE BODY AT A ROW: what the body stores at (r, 0), from the thirteen blocks it loads, is `rowOut` of row r of the x
    block and the weight blocks. -/
theorem body_at (x0 : Vec Ideal S2048x5 .f32) (x1 x2 : Vec Ideal S5 .f32) (x3 : Vec Ideal S128x5 .f32) (x4 : Vec Ideal S128 .f32)
    (x5 : Vec Ideal S32x128 .f32) (x6 : Vec Ideal S32 .f32) (x7 : Vec Ideal S32x128 .f32) (x8 : Vec Ideal S32 .f32)
    (x9 : Vec Ideal S1x32 .f32) (x10 : Vec Ideal S1 .f32) (x11 : Vec Ideal S1x32 .f32) (x12 : Vec Ideal S1 .f32) (r : Fin 2048) :
    k0_pay6 (k0_pay1 x0 x1 x2) (k0_pay3 x0 x3 x4 x5 x6) (k0_pay4 x0 x3 x4 x7 x8) (k0_pay5 (F := Ideal)) x9 x10 x11 x12
        (ix2 r (0 : Fin 1))
      = rowOut (fun j => x0 (ix2 r j)) (fun j => x2 (ix1 j)) (fun j => x1 (ix1 j))
          (fun k j => x3 (ix2 k j)) (fun k => x4 (ix1 k)) (fun l k => x5 (ix2 l k)) (fun l => x6 (ix1 l))
          (fun l k => x7 (ix2 l k)) (fun l => x8 (ix1 l))
          (fun l => x9 (ix2 (0 : Fin 1) l)) (x10 (ix1 (0 : Fin 1))) (fun l => x11 (ix2 (0 : Fin 1) l)) (x12 (ix1 (0 : Fin 1))) := by
  have eS : (fun j => k0_pay1 x0 x1 x2 (ix2 r j))
      = state (fun j => x0 (ix2 r j)) (fun j => x2 (ix1 j)) (fun j => x1 (ix1 j)) :=
    funext fun j => state_at x0 x1 x2 r j
  have eH : (fun k => k0_pay2 x0 x3 x4 (ix2 r k))
      = reluLayer (fun j => x0 (ix2 r j)) (fun k j => x3 (ix2 k j)) (fun k => x4 (ix1 k)) :=
    funext fun k => hidden_at x0 x3 x4 r k
  have eA : (fun l => k0_pay3 x0 x3 x4 x5 x6 (ix2 r l))
      = reluLayer (reluLayer (fun j => x0 (ix2 r j)) (fun k j => x3 (ix2 k j)) (fun k => x4 (ix1 k)))
          (fun l k => x5 (ix2 l k)) (fun l => x6 (ix1 l)) :=
    funext fun l => (branchA_at x0 x3 x4 x5 x6 r l).trans (by rw [eH])
  have eB : (fun l => max (k0_pay4 x0 x3 x4 x7 x8 (ix2 r l)) (k0_pay5 (F := Ideal) (ix2 r l)))
      = reluLayer (reluLayer (fun j => x0 (ix2 r j)) (fun k j => x3 (ix2 k j)) (fun k => x4 (ix1 k)))
          (fun l k => x7 (ix2 l k)) (fun l => x8 (ix1 l)) :=
    funext fun l => (branchB_at x0 x3 x4 x7 x8 r l).trans (by rw [eH])
  rw [stored_at, eS, eA, eB]
  rfl

end Cert.KernelIdeal.Rows

end
-- ==== Proof.KernelBlocks.lean ====
/- Windows 1 to 12 of the pallas_call stage a whole weight array each: their block index is 0 on every axis at every grid
  point (decided over the 256 points), so an element of the block is the element of the array at the same index. -/
import proofs.«139626_j31104153158091_1_alg».proof.Proof.Gen.KernelIdeal.Frame
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

theorem idx0_1 : ∀ t : Fin cfg0.N, win0_1.index t (0 : Fin 1) = 0 :=
  (by decide +kernel : ∀ t : Fin grid0.N, win0_1.index t (0 : Fin 1) = 0)
theorem blk1 (c : Dev nD) (t : Fin cfg0.N) (a : Fin 5) : iblk m c 1 t (ix1 a) = V m c main_arg1 (ix1 a) := by
  have e0 := idx0_1 t
  show V m c main_arg1 (((cfg0.win 1).blk t).view.emb (ix1 a)) = V m c main_arg1 (ix1 a)
  refine congrArg (V m c main_arg1) (funext fun d => Fin.ext ?_)
  match d with
  | ⟨0, _⟩ => show win0_1.index t (0 : Fin 1) * 5 + 1 * a.val = a.val; rw [e0]; omega

theorem idx0_2 : ∀ t : Fin cfg0.N, win0_2.index t (0 : Fin 1) = 0 :=
  (by decide +kernel : ∀ t : Fin grid0.N, win0_2.index t (0 : Fin 1) = 0)
theorem blk2 (c : Dev nD) (t : Fin cfg0.N) (a : Fin 5) : iblk m c 2 t (ix1 a) = V m c main_arg2 (ix1 a) := by
  have e0 := idx0_2 t
  show V m c main_arg2 (((cfg0.win 2).blk t).view.emb (ix1 a)) = V m c main_arg2 (ix1 a)
  refine congrArg (V m c main_arg2) (funext fun d => Fin.ext ?_)
  match d with
  | ⟨0, _⟩ => show win0_2.index t (0 : Fin 1) * 5 + 1 * a.val = a.val; rw [e0]; omega

theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem blk3 (c : Dev nD) (t : Fin cfg0.N) (a : Fin 128) (b : Fin 5) :
    iblk m c 3 t (ix2 a b) = V m c main_arg3 (ix2 a b) := by
  obtain ⟨e0, e1⟩ := idx0_3 t
  show V m c main_arg3 (((cfg0.win 3).blk t).view.emb (ix2 a b)) = V m c main_arg3 (ix2 a b)
  refine congrArg (V m c main_arg3) (funext fun d => Fin.ext ?_)
  match d with
  | ⟨0, _⟩ => show win0_3.index t (0 : Fin 2) * 128 + 1 * a.val = a.val; rw [e0]; omega
  | ⟨1, _⟩ => show win0_3.index t (1 : Fin 2) * 5 + 1 * b.val = b.val; rw [e1]; omega

theorem idx0_4 : ∀ t : Fin cfg0.N, win0_4.index t (0 : Fin 1) = 0 :=
  (by decide +kernel : ∀ t : Fin grid0.N, win0_4.index t (0 : Fin 1) = 0)
theorem blk4 (c : Dev nD) (t : Fin cfg0.N) (a : Fin 128) : iblk m c 4 t (ix1 a) = V m c main_arg4 (ix1 a) := by
  have e0 := idx0_4 t
  show V m c main_arg4 (((cfg0.win 4).blk t).view.emb (ix1 a)) = V m c main_arg4 (ix1 a)
  refine congrArg (V m c main_arg4) (funext fun d => Fin.ext ?_)
  match d with
  | ⟨0, _⟩ => show win0_4.index t (0 : Fin 1) * 128 + 1 * a.val = a.val; rw [e0]; omega

theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem blk5 (c : Dev nD) (t : Fin cfg0.N) (a : Fin 32) (b : Fin 128) :
    iblk m c 5 t (ix2 a b) = V m c main_arg5 (ix2 a b) := by
  obtain ⟨e0, e1⟩ := idx0_5 t
  show V m c main_arg5 (((cfg0.win 5).blk t).view.emb (ix2 a b)) = V m c main_arg5 (ix2 a b)
  refine congrArg (V m c main_arg5) (funext fun d => Fin.ext ?_)
  match d with
  | ⟨0, _⟩ => show win0_5.index t (0 : Fin 2) * 32 + 1 * a.val = a.val; rw [e0]; omega
  | ⟨1, _⟩ => show win0_5.index t (1 : Fin 2) * 128 + 1 * b.val = b.val; rw [e1]; omega

theorem idx0_6 : ∀ t : Fin cfg0.N, win0_6.index t (0 : Fin 1) = 0 :=
  (by decide +kernel : ∀ t : Fin grid0.N, win0_6.index t (0 : Fin 1) = 0)
theorem blk6 (c : Dev nD) (t : Fin cfg0.N) (a : Fin 32) : iblk m c 6 t (ix1 a) = V m c main_arg6 (ix1 a) := by
  have e0 := idx0_6 t
  show V m c main_arg6 (((cfg0.win 6).blk t).view.emb (ix1 a)) = V m c main_arg6 (ix1 a)
  refine congrArg (V m c main_arg6) (funext fun d => Fin.ext ?_)
  match d with
  | ⟨0, _⟩ => show win0_6.index t (0 : Fin 1) * 32 + 1 * a.val = a.val; rw [e0]; omega

theorem idx0_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem blk7 (c : Dev nD) (t : Fin cfg0.N) (a : Fin 32) (b : Fin 128) :
    iblk m c 7 t (ix2 a b) = V m c main_arg7 (ix2 a b) := by
  obtain ⟨e0, e1⟩ := idx0_7 t
  show V m c main_arg7 (((cfg0.win 7).blk t).view.emb (ix2 a b)) = V m c main_arg7 (ix2 a b)
  refine congrArg (V m c main_arg7) (funext fun d => Fin.ext ?_)
  match d with
  | ⟨0, _⟩ => show win0_7.index t (0 : Fin 2) * 32 + 1 * a.val = a.val; rw [e0]; omega
  | ⟨1, _⟩ => show win0_7.index t (1 : Fin 2) * 128 + 1 * b.val = b.val; rw [e1]; omega

theorem idx0_8 : ∀ t : Fin cfg0.N, win0_8.index t (0 : Fin 1) = 0 :=
  (by decide +kernel : ∀ t : Fin grid0.N, win0_8.index t (0 : Fin 1) = 0)
theorem blk8 (c : Dev nD) (t : Fin cfg0.N) (a : Fin 32) : iblk m c 8 t (ix1 a) = V m c main_arg8 (ix1 a) := by
  have e0 := idx0_8 t
  show V m c main_arg8 (((cfg0.win 8).blk t).view.emb (ix1 a)) = V m c main_arg8 (ix1 a)
  refine congrArg (V m c main_arg8) (funext fun d => Fin.ext ?_)
  match d with
  | ⟨0, _⟩ => show win0_8.index t (0 : Fin 1) * 32 + 1 * a.val = a.val; rw [e0]; omega

theorem idx0_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem blk9 (c : Dev nD) (t : Fin cfg0.N) (a : Fin 1) (b : Fin 32) :
    iblk m c 9 t (ix2 a b) = V m c main_arg9 (ix2 a b) := by
  obtain ⟨e0, e1⟩ := idx0_9 t
  show V m c main_arg9 (((cfg0.win 9).blk t).view.emb (ix2 a b)) = V m c main_arg9 (ix2 a b)
  refine congrArg (V m c main_arg9) (funext fun d => Fin.ext ?_)
  match d with
  | ⟨0, _⟩ => show win0_9.index t (0 : Fin 2) * 1 + 1 * a.val = a.val; rw [e0]; omega
  | ⟨1, _⟩ => show win0_9.index t (1 : Fin 2) * 32 + 1 * b.val = b.val; rw [e1]; omega

theorem idx0_10 : ∀ t : Fin cfg0.N, win0_10.index t (0 : Fin 1) = 0 :=
  (by decide +kernel : ∀ t : Fin grid0.N, win0_10.index t (0 : Fin 1) = 0)
theorem blk10 (c : Dev nD) (t : Fin cfg0.N) (a : Fin 1) : iblk m c 10 t (ix1 a) = V m c main_arg10 (ix1 a) := by
  have e0 := idx0_10 t
  show V m c main_arg10 (((cfg0.win 10).blk t).view.emb (ix1 a)) = V m c main_arg10 (ix1 a)
  refine congrArg (V m c main_arg10) (funext fun d => Fin.ext ?_)
  match d with
  | ⟨0, _⟩ => show win0_10.index t (0 : Fin 1) * 1 + 1 * a.val = a.val; rw [e0]; omega

theorem idx0_11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem blk11 (c : Dev nD) (t : Fin cfg0.N) (a : Fin 1) (b : Fin 32) :
    iblk m c 11 t (ix2 a b) = V m c main_arg11 (ix2 a b) := by
  obtain ⟨e0, e1⟩ := idx0_11 t
  show V m c main_arg11 (((cfg0.win 11).blk t).view.emb (ix2 a b)) = V m c main_arg11 (ix2 a b)
  refine congrArg (V m c main_arg11) (funext fun d => Fin.ext ?_)
  match d with
  | ⟨0, _⟩ => show win0_11.index t (0 : Fin 2) * 1 + 1 * a.val = a.val; rw [e0]; omega
  | ⟨1, _⟩ => show win0_11.index t (1 : Fin 2) * 32 + 1 * b.val = b.val; rw [e1]; omega

theorem idx0_12 : ∀ t : Fin cfg0.N, win0_12.index t (0 : Fin 1) = 0 :=
  (by decide +kernel : ∀ t : Fin grid0.N, win0_12.index t (0 : Fin 1) = 0)
theorem blk12 (c : Dev nD) (t : Fin cfg0.N) (a : Fin 1) : iblk m c 12 t (ix1 a) = V m c main_arg12 (ix1 a) := by
  have e0 := idx0_12 t
  show V m c main_arg12 (((cfg0.win 12).blk t).view.emb (ix1 a)) = V m c main_arg12 (ix1 a)
  refine congrArg (V m c main_arg12) (funext fun d => Fin.ext ?_)
  match d with
  | ⟨0, _⟩ => show win0_12.index t (0 : Fin 1) * 1 + 1 * a.val = a.val; rw [e0]; omega

end Cert.KernelIdeal.Whole

end
-- ==== Proof.KernelArray.lean ====
/-
  From blocks to the array. Grid point t stages rows 2048 t … 2048 t + 2047 of `x` and every weight array whole, and
  writes back rows 2048 t … 2048 t + 2047 of the result. By the body's row lemma the block it writes is the restriction of
  the whole-array function `arrayOut` of the arguments to those rows; the 256 blocks cover the 524288 rows (row R is in
  the block of point R / 2048), so after the run the result array is `arrayOut` of the arguments.
-/
import proofs.«139626_j31104153158091_1_alg».proof.Proof.Gen.KernelIdeal.Value
import proofs.«139626_j31104153158091_1_alg».proof.Proof.KernelRows
import proofs.«139626_j31104153158091_1_alg».proof.Proof.KernelBlocks

noncomputable section

namespace Cert.KernelIdeal.Whole

open Cert.KernelIdeal Cert.KernelIdeal.Gen Idealize.ShloMosaic Idealize.ShloMosaic.TcCoe Idealize.SL.Sem
open Idealize.ShloMosaic.ValueIdx Cert.Barrier Cert.KernelIdeal.Rows
open Idealize.ShloMosaic.Pipeline (Dat)

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a <;> rfl

/-! ## Each window's block at a point, read off its array

The x window and the result window move together: block index t on the rows, 0 on the columns. Every other window's
block is its whole array (the block-read lemmas of windows 1 to 12 are imported). Decided over the 256 grid points. -/

theorem idx_rows : ∀ t : Fin cfg0.N, win0_0.index t (0 : Fin 2) = win0_13.index t (0 : Fin 2)
    ∧ win0_0.index t (1 : Fin 2) = 0 ∧ win0_13.index t (1 : Fin 2) = 0 :=
  (by decide +kernel : ∀ t : Fin grid0.N, win0_0.index t (0 : Fin 2) = win0_13.index t (0 : Fin 2)
    ∧ win0_0.index t (1 : Fin 2) = 0 ∧ win0_13.index t (1 : Fin 2) = 0)

/-- Row r of the x block at point t is the row of `x` that row r of the result block lands on. -/
theorem blk0 (c : Dev nD) (t : Fin cfg0.N) (r : Fin 2048) (j : Fin 5) :
    iblk m c 0 t (ix2 r j)
      = V m c main_arg0 (ix2 (((cfg0.win 13).blk t).view.emb (ix2 r (0 : Fin 1)) 0) j) := by
  obtain ⟨e0, e1, -⟩ := idx_rows t
  show V m c main_arg0 (((cfg0.win 0).blk t).view.emb (ix2 r j)) = V m c main_arg0 _
  refine congrArg (V m c main_arg0) (funext fun d => Fin.ext ?_)
  match d with
  | ⟨0, _⟩ =>
    show win0_0.index t (0 : Fin 2) * 2048 + 1 * r.val = win0_13.index t (0 : Fin 2) * 2048 + 1 * r.val
    rw [e0]
  | ⟨1, _⟩ => show win0_0.index t (1 : Fin 2) * 5 + 1 * j.val = j.val; rw [e1]; omega

/-! ## What a point writes back, the cover, and the array after the run -/

/-- WHAT POINT t WRITES BACK is block t of `arrayOut` of the argument arrays. -/
theorem flushed_eq (c : Dev nD) (t : Fin cfg0.N) :
    (dats m 0 c).flushed 13 t = ((cfg0.win 13).blk t).view.read (Elt Ideal)
      (arrayOut (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12)) := by
  rw [Value.flushed13 m c t]
  unfold out0_13
  rw [View.canon_unit_zero off2]
  simp only [View.ld_unit_zero (S := S2048x5) off2, View.ld_unit_zero (S := S5) off1, View.ld_unit_zero (S := S128x5) off2,
    View.ld_unit_zero (S := S128) off1, View.ld_unit_zero (S := S32x128) off2, View.ld_unit_zero (S := S32) off1,
    View.ld_unit_zero (S := S1x32) off2, View.ld_unit_zero (S := S1) off1]
  funext y
  obtain ⟨r, q, rfl⟩ : ∃ (r : Fin 2048) (q : Fin 1), y = ix2 r q := ⟨y 0, y 1, eq_ix2 (n0 := 2048) (n1 := 1) y⟩
  obtain rfl : q = 0 := Subsingleton.elim _ _
  refine Eq.trans (body_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r) ?_
  show _ = arrayOut (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (((cfg0.win 13).blk t).view.emb (ix2 r (0 : Fin 1)))
  unfold arrayOut
  simp only [blk0 m c t r, blk1 m c t, blk2 m c t, blk3 m c t, blk4 m c t, blk5 m c t, blk6 m c t, blk7 m c t,
    blk8 m c t, blk9 m c t, blk10 m c t, blk11 m c t, blk12 m c t]

/-- An index of the result array is in point t's block iff each coordinate is in the block's range on its axis. -/
theorem mem_blk (t : Fin cfg0.N) (i : S524288x1.Idx) :
    i ∈ ((cfg0.win 13).blk t).view.set ↔ ∀ a : Fin 2, win0_13.index t a * S2048x1.size a ≤ (i a).val
      ∧ (i a).val < win0_13.index t a * S2048x1.size a + S2048x1.size a := by
  show i ∈ ((View.whole main_v0).slice (win0_13.rect t)).set ↔ _
  rw [View.set_slice_whole, Rect.mem_set_unit]
  exact Iff.rfl

/-- Every row of the result is in some point's block: row R in the block of point R / 2048. -/
theorem cover (i : S524288x1.Idx) :
    ∃ t : Fin cfg0.N, (cfg0.win 13).flush t = true ∧ i ∈ ((cfg0.win 13).blk t).view.set := by
  have hi0 : (i 0).val < 524288 := (i 0).isLt
  have hi1 : (i 1).val < 1 := (i 1).isLt
  have hN : cfg0.N = 256 := rfl
  obtain ⟨t, ht⟩ : ∃ t : Fin cfg0.N, t.val = (i 0).val / 2048 := ⟨⟨(i 0).val / 2048, by rw [hN]; omega⟩, rfl⟩
  have p0 : win0_13.index t (0 : Fin 2) = t.val := Value.idx_pt13 t
  obtain ⟨-, -, p1⟩ := idx_rows t
  refine ⟨t, flush0_13 t, ?_⟩
  rw [mem_blk]
  intro a
  match a with
  | ⟨0, _⟩ =>
    show win0_13.index t (0 : Fin 2) * 2048 ≤ (i 0).val ∧ (i 0).val < win0_13.index t (0 : Fin 2) * 2048 + 2048
    rw [p0, ht]; omega
  | ⟨1, _⟩ =>
    show win0_13.index t (1 : Fin 2) * 1 ≤ (i 1).val ∧ (i 1).val < win0_13.index t (1 : Fin 2) * 1 + 1
    rw [p1]; omega

/-- THE ARRAY after the run is `arrayOut` of the argument arrays. -/
theorem final (c : Dev nD) : (dats m 0 c).arrAt 13 cfg0.N
    = arrayOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (dats m 0 c).arrAt_eq_of_cover 13 _ (fun t _ => flushed_eq m c t) cover

/-- The kernel's run: the result array ends at `arrayOut` of the arguments, the arguments unchanged. -/
theorem run : θ_run defs (onTc (τ := τ) (main (F := Ideal))) ⟨m, fun _ => 0, ρ⟩ fun r => ∀ c : Dev nD,
      r.2.mem ((c : Thread nD τ).loc main_v0) = arrayOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.KernelIdeal.Whole

end
-- ==== Proof.RefRows.lean ====
/-
  The reference, row by row. Each stage of the reference's straight-line program is read at row R of its 524288 rows
  through the generated read-at-an-index lemmas: the de-normalised state is `state` of row R of `x`; the hidden layer
  and the two branches are `reluLayer`; the two heads are `head`; jax's logistic function, written out as
  1 / (1 + e^(−q)), is the logistic function; the barrier value is `barrier`; and the final select is `qp`. So the
  result array is `arrayOut` of the arguments.
-/
import proofs.«139626_j31104153158091_1_alg».proof.Proof.Gen.ReferenceIdeal.Read
import proofs.«139626_j31104153158091_1_alg».proof.Proof.RowSpec

noncomputable section

namespace Cert.ReferenceIdeal.Rows

open Cert.ReferenceIdeal Cert.ReferenceIdeal.Read Idealize.ShloMosaic Idealize.ShloMosaic.ValueIdx Cert.Barrier

/-- An f32 array of the reference at the ideal values. -/
abbrev Arr (S : Shape) : Type := (⟨S, .f32⟩ : BufTy).Contents (Elt Ideal)

variable (x0 : Arr S524288x5) (x1 x2 : Arr S5) (x3 : Arr S128x5) (x4 : Arr S128) (x5 : Arr S32x128) (x6 : Arr S32)
  (x7 : Arr S32x128) (x8 : Arr S32) (x9 : Arr S1x32) (x10 : Arr S1) (x11 : Arr S1x32) (x12 : Arr S1)

/-- The de-normalised state at (R, j): `x (R, j) · σ j + μ j` (σ the third argument, μ the second). -/
theorem state_at (R : Fin 524288) (j : Fin 5) :
    val_main_v5 (F := Ideal) x0 x1 x2 (ix2 R j)
      = state (fun j => x0 (ix2 R j)) (fun j => x2 (ix1 j)) (fun j => x1 (ix1 j)) j := by
  have e2 : idx_main_v0 (idx_main_v1 (ix2 R j)) = ix1 j := funext fun a => Fin.ext (by match a with | ⟨0, _⟩ => rfl)
  have e1 : idx_main_v3 (idx_main_v4 (ix2 R j)) = ix1 j := funext fun a => Fin.ext (by match a with | ⟨0, _⟩ => rfl)
  rw [val_main_v5_apply, val_main_v2_apply, val_main_v1_apply, val_main_v0_apply, val_main_v4_apply, val_main_v3_apply, e2, e1]
  rfl

/-- The hidden layer at (R, k). -/
theorem hidden_at (R : Fin 524288) (k : Fin 128) :
    val_main_v11 (F := Ideal) x0 x3 x4 (ix2 R k)
      = reluLayer (fun j => x0 (ix2 R j)) (fun k j => x3 (ix2 k j)) (fun k => x4 (ix1 k)) k := by
  have el : ∀ q : Fin 5, lidx_main_v7 (ix2 R k) q = ix2 R q := fun q => funext fun a => Fin.ext (by match a with | ⟨0, _⟩ => rfl | ⟨1, _⟩ => rfl)
  have er : ∀ q : Fin 5, idx_main_v6 (ridx_main_v7 (ix2 R k) q) = ix2 k q := fun q => funext fun a => Fin.ext (by match a with | ⟨0, _⟩ => rfl | ⟨1, _⟩ => rfl)
  have eb : idx_main_v8 (idx_main_v9 (ix2 R k)) = ix1 k := funext fun a => Fin.ext (by match a with | ⟨0, _⟩ => rfl)
  rw [val_main_v11_apply, val_main_v10_apply, val_main_v7_apply, val_main_v9_apply, val_main_v8_apply,
    val_main_call0_v0_apply, val_main_call0_cst_apply, eb]
  simp only [val_main_v6_apply, el, er]
  rfl

/-- The first branch at (R, l). -/
theorem branchA_at (R : Fin 524288) (l : Fin 32) :
    val_main_v17 (F := Ideal) x0 x3 x4 x5 x6 (ix2 R l)
      = reluLayer (fun k => val_main_v11 (F := Ideal) x0 x3 x4 (ix2 R k)) (fun l k => x5 (ix2 l k)) (fun l => x6 (ix1 l)) l := by
  have el : ∀ q : Fin 128, lidx_main_v13 (ix2 R l) q = ix2 R q := fun q => funext fun a => Fin.ext (by match a with | ⟨0, _⟩ => rfl | ⟨1, _⟩ => rfl)
  have er : ∀ q : Fin 128, idx_main_v12 (ridx_main_v13 (ix2 R l) q) = ix2 l q := fun q => funext fun a => Fin.ext (by match a with | ⟨0, _⟩ => rfl | ⟨1, _⟩ => rfl)
  have eb : idx_main_v14 (idx_main_v15 (ix2 R l)) = ix1 l := funext fun a => Fin.ext (by match a with | ⟨0, _⟩ => rfl)
  rw [val_main_v17_apply, val_main_v16_apply, val_main_v13_apply, val_main_v15_apply, val_main_v14_apply,
    val_main_call1_v0_apply, val_main_call1_cst_apply, eb]
  simp only [val_main_v12_apply, el, er]
  rfl

/-- The second branch at (R, l). -/
theorem branchB_at (R : Fin 524288) (l : Fin 32) :
    val_main_v23 (F := Ideal) x0 x3 x4 x7 x8 (ix2 R l)
      = reluLayer (fun k => val_main_v11 (F := Ideal) x0 x3 x4 (ix2 R k)) (fun l k => x7 (ix2 l k)) (fun l => x8 (ix1 l)) l := by
  have el : ∀ q : Fin 128, lidx_main_v19 (ix2 R l) q = ix2 R q := fun q => funext fun a => Fin.ext (by match a with | ⟨0, _⟩ => rfl | ⟨1, _⟩ => rfl)
  have er : ∀ q : Fin 128, idx_main_v18 (ridx_main_v19 (ix2 R l) q) = ix2 l q := fun q => funext fun a => Fin.ext (by match a with | ⟨0, _⟩ => rfl | ⟨1, _⟩ => rfl)
  have eb : idx_main_v20 (idx_main_v21 (ix2 R l)) = ix1 l := funext fun a => Fin.ext (by match a with | ⟨0, _⟩ => rfl)
  rw [val_main_v23_apply, val_main_v22_apply, val_main_v19_apply, val_main_v21_apply, val_main_v20_apply,
    val_main_call2_v0_apply, val_main_call2_cst_apply, eb]
  simp only [val_main_v18_apply, el, er]
  rfl

/-- The first head at (R, 0). -/
theorem headA_at (R : Fin 524288) :
    val_main_v28 (F := Ideal) x0 x3 x4 x5 x6 x9 x10 (ix2 R (0 : Fin 1))
      = head (fun l => val_main_v17 (F := Ideal) x0 x3 x4 x5 x6 (ix2 R l)) (fun l => x9 (ix2 (0 : Fin 1) l)) (x10 (ix1 (0 : Fin 1))) := by
  have el : ∀ q : Fin 32, lidx_main_v25 (ix2 R (0 : Fin 1)) q = ix2 R q := fun q => funext fun a => Fin.ext (by match a with | ⟨0, _⟩ => rfl | ⟨1, _⟩ => rfl)
  have er : ∀ q : Fin 32, idx_main_v24 (ridx_main_v25 (ix2 R (0 : Fin 1)) q) = ix2 (0 : Fin 1) q := fun q => funext fun a => Fin.ext (by match a with | ⟨0, _⟩ => rfl | ⟨1, _⟩ => rfl)
  have eb : idx_main_v26 (idx_main_v27 (ix2 R (0 : Fin 1))) = ix1 (0 : Fin 1) := funext fun a => Fin.ext (by match a with | ⟨0, _⟩ => rfl)
  rw [val_main_v28_apply, val_main_v25_apply, val_main_v27_apply, val_main_v26_apply, eb]
  simp only [val_main_v24_apply, el, er]
  rfl

/-- The second head at (R, 0). -/
theorem headB_at (R : Fin 524288) :
    val_main_v33 (F := Ideal) x0 x3 x4 x7 x8 x11 x12 (ix2 R (0 : Fin 1))
      = head (fun l => val_main_v23 (F := Ideal) x0 x3 x4 x7 x8 (ix2 R l)) (fun l => x11 (ix2 (0 : Fin 1) l)) (x12 (ix1 (0 : Fin 1))) := by
  have el : ∀ q : Fin 32, lidx_main_v30 (ix2 R (0 : Fin 1)) q = ix2 R q := fun q => funext fun a => Fin.ext (by match a with | ⟨0, _⟩ => rfl | ⟨1, _⟩ => rfl)
  have er : ∀ q : Fin 32, idx_main_v29 (ridx_main_v30 (ix2 R (0 : Fin 1)) q) = ix2 (0 : Fin 1) q := fun q => funext fun a => Fin.ext (by match a with | ⟨0, _⟩ => rfl | ⟨1, _⟩ => rfl)
  have eb : idx_main_v31 (idx_main_v32 (ix2 R (0 : Fin 1))) = ix1 (0 : Fin 1) := funext fun a => Fin.ext (by match a with | ⟨0, _⟩ => rfl)
  rw [val_main_v33_apply, val_main_v30_apply, val_main_v32_apply, val_main_v31_apply, eb]
  simp only [val_main_v29_apply, el, er]
  rfl

/-- Four times jax's logistic function of the second head: the quotient 1 / (1 + e^(−q)) is the logistic function. -/
theorem gain_at (i : S524288x1.Idx) :
    val_main_v41 (F := Ideal) x0 x3 x4 x7 x8 x11 x12 i
      = fourW * Ideal.logistic (val_main_v33 (F := Ideal) x0 x3 x4 x7 x8 x11 x12 i) := by
  rw [val_main_v41_apply, val_main_v40_apply, val_main_cst_1_apply, val_main_v39_apply, val_main_v38_apply,
    val_main_cst_0_apply, val_main_v37_apply, val_main_v36_apply, val_main_cst_apply, val_main_v35_apply, val_main_v34_apply]
  exact congrArg (fourW * ·) (logistic_quotient _)

/-- The barrier value at (R, 0). -/
theorem barrier_at (R : Fin 524288) :
    val_main_v60 (F := Ideal) x0 x1 x2 x3 x4 x7 x8 x11 x12 (ix2 R (0 : Fin 1))
      = barrier (fun j => val_main_v5 (F := Ideal) x0 x1 x2 (ix2 R j))
          (val_main_v33 (F := Ideal) x0 x3 x4 x7 x8 x11 x12 (ix2 R (0 : Fin 1))) := by
  have i1 : idx_main_v42 (idx_main_v43 (idx_main_v47 (ix2 R (0 : Fin 1)))) = ix2 R (1 : Fin 5) :=
    funext fun a => Fin.ext (by match a with | ⟨0, _⟩ => exact Nat.div_one _ | ⟨1, _⟩ => rfl)
  have i3 : idx_main_v44 (idx_main_v45 (idx_main_v47 (ix2 R (0 : Fin 1)))) = ix2 R (3 : Fin 5) :=
    funext fun a => Fin.ext (by match a with | ⟨0, _⟩ => exact Nat.div_one _ | ⟨1, _⟩ => rfl)
  have i0 : idx_main_v48 (idx_main_v49 (idx_main_v58 (ix2 R (0 : Fin 1)))) = ix2 R (0 : Fin 5) :=
    funext fun a => Fin.ext (by match a with | ⟨0, _⟩ => exact Nat.div_one _ | ⟨1, _⟩ => rfl)
  have i2 : idx_main_v50 (idx_main_v51 (idx_main_v58 (ix2 R (0 : Fin 1)))) = ix2 R (2 : Fin 5) :=
    funext fun a => Fin.ext (by match a with | ⟨0, _⟩ => exact Nat.div_one _ | ⟨1, _⟩ => rfl)
  have i3' : idx_main_v53 (idx_main_v54 (idx_main_v58 (ix2 R (0 : Fin 1)))) = ix2 R (3 : Fin 5) :=
    funext fun a => Fin.ext (by match a with | ⟨0, _⟩ => exact Nat.div_one _ | ⟨1, _⟩ => rfl)
  rw [val_main_v60_apply, val_main_v59_apply, gain_at, val_main_v47_apply, val_main_v46_apply, val_main_v43_apply,
    val_main_v42_apply, val_main_v45_apply, val_main_v44_apply, val_main_v58_apply, val_main_v57_apply, val_main_v52_apply,
    val_main_v49_apply, val_main_v48_apply, val_main_v51_apply, val_main_v50_apply, val_main_v56_apply, val_main_v55_apply,
    val_main_cst_2_apply, val_main_v54_apply, val_main_v53_apply, i1, i3, i0, i2, i3']
  rfl

/-- The result at an index: the minimiser `qp` of the first head and the barrier value there. -/
theorem out_at (i : S524288x1.Idx) :
    val_main_v67 (F := Ideal) x0 x1 x2 x3 x4 x5 x6 x7 x8 x9 x10 x11 x12 i
      = qp (val_main_v28 (F := Ideal) x0 x3 x4 x5 x6 x9 x10 i) (val_main_v60 (F := Ideal) x0 x1 x2 x3 x4 x7 x8 x11 x12 i) := by
  rw [val_main_v67_apply, val_main_v64_apply, val_main_v63_apply, val_main_v62_apply, val_main_cst_3_apply,
    val_main_v61_apply, val_main_v66_apply, val_main_v65_apply, val_main_cst_4_apply]
  rfl

/-- THE REFERENCE'S RESULT is `arrayOut` of the arguments. -/
theorem result_eq :
    val_main_v67 (F := Ideal) x0 x1 x2 x3 x4 x5 x6 x7 x8 x9 x10 x11 x12
      = arrayOut x0 x1 x2 x3 x4 x5 x6 x7 x8 x9 x10 x11 x12 := by
  funext i
  obtain ⟨R, q, rfl⟩ : ∃ (R : Fin 524288) (q : Fin 1), i = ix2 R q := ⟨i 0, i 1, eq_ix2 (n0 := 524288) (n1 := 1) i⟩
  obtain rfl : q = 0 := Subsingleton.elim _ _
  have eS : (fun j => val_main_v5 (F := Ideal) x0 x1 x2 (ix2 R j))
      = state (fun j => x0 (ix2 R j)) (fun j => x2 (ix1 j)) (fun j => x1 (ix1 j)) :=
    funext fun j => state_at x0 x1 x2 R j
  have eH : (fun k => val_main_v11 (F := Ideal) x0 x3 x4 (ix2 R k))
      = reluLayer (fun j => x0 (ix2 R j)) (fun k j => x3 (ix2 k j)) (fun k => x4 (ix1 k)) :=
    funext fun k => hidden_at x0 x3 x4 R k
  have eA : (fun l => val_main_v17 (F := Ideal) x0 x3 x4 x5 x6 (ix2 R l))
      = reluLayer (reluLayer (fun j => x0 (ix2 R j)) (fun k j => x3 (ix2 k j)) (fun k => x4 (ix1 k)))
          (fun l k => x5 (ix2 l k)) (fun l => x6 (ix1 l)) :=
    funext fun l => (branchA_at x0 x3 x4 x5 x6 R l).trans (by rw [eH])
  have eB : (fun l => val_main_v23 (F := Ideal) x0 x3 x4 x7 x8 (ix2 R l))
      = reluLayer (reluLayer (fun j => x0 (ix2 R j)) (fun k j => x3 (ix2 k j)) (fun k => x4 (ix1 k)))
          (fun l k => x7 (ix2 l k)) (fun l => x8 (ix1 l)) :=
    funext fun l => (branchB_at x0 x3 x4 x7 x8 R l).trans (by rw [eH])
  rw [out_at, headA_at, barrier_at, headB_at, eS, eA, eB]
  rfl

end Cert.ReferenceIdeal.Rows

end
-- ==== Proof.lean ====
/-
  The kernel (a five-layer perceptron and a one-dimensional quadratic program, applied to each of 524288 rows, 2048 rows
  per grid point) and its jnp reference compute the same array on the extended reals.

  Row R of the result depends on row R of `x` and on the weights only: with the hidden layer h₁ = relu (x W₁ᵀ + b₁), the
  two branches relu (h₁ W₂₁ᵀ + b₂₁) and relu (h₁ W₂₂ᵀ + b₂₂), their heads p and q, the de-normalised state
  s = x σ + μ and the barrier value h = (s₁ − s₃) + 4 σ(q) ((s₀ − s₂) − c s₃), it is −p where c (−p) ≤ h and h / c
  elsewhere (`Cert.Barrier.rowOut`, `arrayOut`). The kernel's conversions to bf16 are the identity there, its products
  into a zero accumulator and the reference's `dot_general`s are the same sums, its `0 − p` is the reference's `−p`, and
  its logistic function is the reference's 1 / (1 + e^(−q)): no law that needs finite inputs is used, so the
  precondition is never opened. The kernel side reads the body's stored value at a row (`Rows.body_at`), carries it
  from blocks to the array (`Whole.run`); the reference side reads its run stage by stage (`Rows.result_eq`).
-/
import proofs.«139626_j31104153158091_1_alg».proof.Defs
import proofs.«139626_j31104153158091_1_alg».proof.Proof.Gen.Kernel
import proofs.«139626_j31104153158091_1_alg».proof.Proof.Gen.Kernel.Skeleton
import proofs.«139626_j31104153158091_1_alg».proof.Proof.Gen.Kernel.Launch
import proofs.«139626_j31104153158091_1_alg».proof.Proof.Gen.Kernel.Points
import proofs.«139626_j31104153158091_1_alg».proof.Proof.Gen.Kernel.Frame
import proofs.«139626_j31104153158091_1_alg».proof.Proof.Gen.KernelIdeal
import proofs.«139626_j31104153158091_1_alg».proof.Proof.Gen.KernelIdeal.Skeleton
import proofs.«139626_j31104153158091_1_alg».proof.Proof.Gen.KernelIdeal.Launch
import proofs.«139626_j31104153158091_1_alg».proof.Proof.Gen.KernelIdeal.Points
import proofs.«139626_j31104153158091_1_alg».proof.Proof.Gen.KernelIdeal.Frame
import proofs.«139626_j31104153158091_1_alg».proof.Proof.Gen.ReferenceIdeal
import proofs.«139626_j31104153158091_1_alg».proof.Proof.Gen.Pre_finite_inputs
import proofs.«139626_j31104153158091_1_alg».proof.Proof.Gen.KernelIdeal.Value
import proofs.«139626_j31104153158091_1_alg».proof.Proof.Gen.ReferenceIdeal.Run
import proofs.«139626_j31104153158091_1_alg».proof.Proof.Gen.ReferenceIdeal.Read
import proofs.«139626_j31104153158091_1_alg».proof.Proof.KernelArray
import proofs.«139626_j31104153158091_1_alg».proof.Proof.RefRows
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight-line host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the thirteen arguments both programs end with the result array at `arrayOut` of the
    arguments: the kernel by its blocks, the reference by its stages. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v67_eq, Cert.ReferenceIdeal.Rows.result_eq, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
